-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S16x64 : Shape := ⟨2, ![16, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S8 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S64x8192 .f32) (main_arg1 : FVec F S16x64 .f32) (main_arg2 : FVec F S64 .f32) (main_arg3 : FVec F S64x8 .f32) (main_arg4 : FVec F S8 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S16x64 .f32 := Host.absf main_arg1
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8 .f32 := Host.absf main_arg3
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg4 main_v13 main_v16
-- ==== Kernel.lean ====
abbrev S64x8192 : Shape := ⟨2, ![64, 8192]⟩
abbrev S16x64 : Shape := ⟨2, ![16, 64]⟩
abbrev S64 : Shape := ⟨1, ![64]⟩
abbrev S64x8 : Shape := ⟨2, ![64, 8]⟩
abbrev S8 : Shape := ⟨1, ![8]⟩
abbrev S_ : Shape := ⟨0, ![]⟩
abbrev S64x8207 : Shape := ⟨2, ![64, 8207]⟩
abbrev S1x64 : Shape := ⟨2, ![1, 64]⟩
abbrev S1x8 : Shape := ⟨2, ![1, 8]⟩
abbrev S64x8177x8 : Shape := ⟨3, ![64, 8177, 8]⟩
abbrev S64x256x8 : Shape := ⟨3, ![64, 256, 8]⟩
abbrev S64x271 : Shape := ⟨2, ![64, 271]⟩
abbrev S64x256 : Shape := ⟨2, ![64, 256]⟩
abbrev S64x256x1 : Shape := ⟨3, ![64, 256, 1]⟩
abbrev S64x256x16 : Shape := ⟨3, ![64, 256, 16]⟩
abbrev S16384x16 : Shape := ⟨2, ![16384, 16]⟩
abbrev S16384x64 : Shape := ⟨2, ![16384, 64]⟩
abbrev S16384x8 : Shape := ⟨2, ![16384, 8]⟩
abbrev S64x8x8177 : Shape := ⟨3, ![64, 8, 8177]⟩

abbrev nBuf : Space → Nat
  | .hbm => 12
  | .vmem => 7
  | .smem => 0
  | _ => 0

abbrev bufTy : (tb : Table) → Fin (tcTables nBuf tb) → BufTy
  | .hbm, ⟨0, _⟩ => ⟨S64x8192, .f32⟩
  | .hbm, ⟨1, _⟩ => ⟨S16x64, .f32⟩
  | .hbm, ⟨2, _⟩ => ⟨S64, .f32⟩
  | .hbm, ⟨3, _⟩ => ⟨S64x8, .f32⟩
  | .hbm, ⟨4, _⟩ => ⟨S8, .f32⟩
  | .hbm, ⟨5, _⟩ => ⟨S_, .i32⟩
  | .hbm, ⟨6, _⟩ => ⟨S_, .f32⟩
  | .hbm, ⟨7, _⟩ => ⟨S64x8207, .f32⟩
  | .hbm, ⟨8, _⟩ => ⟨S1x64, .f32⟩
  | .hbm, ⟨9, _⟩ => ⟨S1x8, .f32⟩
  | .hbm, ⟨10, _⟩ => ⟨S64x8177x8, .f32⟩
  | .hbm, ⟨11, _⟩ => ⟨S64x8x8177, .f32⟩
  | .local _ .vmem, ⟨0, _⟩ => ⟨S64x8207, .f32⟩
  | .local _ .vmem, ⟨1, _⟩ => ⟨S16x64, .f32⟩
  | .local _ .vmem, ⟨2, _⟩ => ⟨S1x64, .f32⟩
  | .local _ .vmem, ⟨3, _⟩ => ⟨S64x8, .f32⟩
  | .local _ .vmem, ⟨4, _⟩ => ⟨S1x8, .f32⟩
  | .local _ .vmem, ⟨5, _⟩ => ⟨S64x256x8, .f32⟩
  | .local _ .vmem, ⟨6, _⟩ => ⟨S64x256x8, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let c0 : Index := 0#32
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  ![0, v2.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S64x8207 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x256x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S64x8192_S64x8207_000_0150 : S64x8192.Pads (![0, 0] : Fin 2 → Nat) ![0, 15] ![0, 0] S64x8207
  h_S_ : 0 < S_.numel
  shapeCasts_S64_S1x64 : S64.ShapeCasts S1x64
  shapeCasts_S8_S1x8 : S8.ShapeCasts S1x8
  h_S64x271 : 0 < S64x271.numel
  shapeCasts_S64x271_S64x271 : S64x271.ShapeCasts S64x271
  slices_S64x271_o0_0_S64x256 : S64x271.Slices ![0, 0] S64x256
  slices_S64x271_o0_1_S64x256 : S64x271.Slices ![0, 1] S64x256
  slices_S64x271_o0_2_S64x256 : S64x271.Slices ![0, 2] S64x256
  slices_S64x271_o0_3_S64x256 : S64x271.Slices ![0, 3] S64x256
  slices_S64x271_o0_4_S64x256 : S64x271.Slices ![0, 4] S64x256
  slices_S64x271_o0_5_S64x256 : S64x271.Slices ![0, 5] S64x256
  slices_S64x271_o0_6_S64x256 : S64x271.Slices ![0, 6] S64x256
  slices_S64x271_o0_7_S64x256 : S64x271.Slices ![0, 7] S64x256
  slices_S64x271_o0_8_S64x256 : S64x271.Slices ![0, 8] S64x256
  slices_S64x271_o0_9_S64x256 : S64x271.Slices ![0, 9] S64x256
  slices_S64x271_o0_10_S64x256 : S64x271.Slices ![0, 10] S64x256
  slices_S64x271_o0_11_S64x256 : S64x271.Slices ![0, 11] S64x256
  slices_S64x271_o0_12_S64x256 : S64x271.Slices ![0, 12] S64x256
  slices_S64x271_o0_13_S64x256 : S64x271.Slices ![0, 13] S64x256
  slices_S64x271_o0_14_S64x256 : S64x271.Slices ![0, 14] S64x256
  slices_S64x271_o0_15_S64x256 : S64x271.Slices ![0, 15] S64x256
  shapeCasts_S64x256_S64x256x1 : S64x256.ShapeCasts S64x256x1
  concatenates_S64x256x1_S64x256x1_S64x256x1_S64x256x1_S64x256x1_S64x256x1_S64x256x1_S64x256x1_S64x256x1_S64x256x1_S64x256x1_S64x256x1_S64x256x1_S64x256x1_S64x256x1_S64x256x1_S64x256x16_d2 : Shape.Concatenates [S64x256x1, S64x256x1, S64x256x1, S64x256x1, S64x256x1, S64x256x1, S64x256x1, S64x256x1, S64x256x1, S64x256x1, S64x256x1, S64x256x1, S64x256x1, S64x256x1, S64x256x1, S64x256x1] S64x256x16 2
  shapeCasts_S64x256x16_S16384x16 : S64x256x16.ShapeCasts S16384x16
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16384x64 : S1x64.Broadcasts S16384x64
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S16384x8 : S1x8.Broadcasts S16384x8
  shapeCasts_S16384x8_S64x256x8 : S16384x8.ShapeCasts S64x256x8
  inb_S64x256x8_S64x256x8_0_0_0 : ∀ a, (![0, 0, 0] : Fin 3 → Nat) a + S64x256x8.size a ≤ S64x256x8.size a
  h_S64x256x8 : 0 < S64x256x8.numel
  shapeCasts_S64x8177x8_S64x8x8177 : S64x8177x8.ShapeCasts S64x8x8177
  dot_S16384x16_S16x64_S16384x64_1_0_0_1_n_n_wf : DotDims.WF S16384x16 S16x64 S16384x64 [1] [0] [0] [1] [] []
  dot_S16384x64_S64x8_S16384x8_1_0_0_1_n_n_wf : DotDims.WF S16384x64 S64x8 S16384x8 [1] [0] [0] [1] [] []
  hrank0 : 0 < grid0.rank
  k0_mult1_dvd : ∀ i : grid0.Coords, 256 ∣ (k0_mult1 i).toNat
  k0_off1_inb : ∀ i : grid0.Coords, ∀ a, (k0_off1 i) a + S64x271.size a ≤ S64x8207.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x8207.size a ≤ S64x8207.size a
  hwx0_0 : ∀ i : grid0.Coords, EltTy.bits .f32 = 32 ∨ (Rect.block (s := S64x8207) S64x8207.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x8.size a ≤ S64x8.size a
  hwx0_3 : ∀ i : grid0.Coords, EltTy.bits .f32 = 32 ∨ (Rect.block (s := S64x8) S64x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S64x256x8.size a < S64x8177x8.size a
  hwx0_5 : ∀ i : grid0.Coords, EltTy.bits .f32 = 32 ∨ (Rect.unit (s := S64x8177x8) (fun a => cc0_transform_5 i a * S64x256x8.size a) (fun a => (Pipeline.Clip.of (cc0_transform_5 i a) (S64x256x8.size a) (S64x8177x8.size a)).extent (S64x256x8.size a)) fun a => Pipeline.Clip.inb (Pipeline.Clip.ok_of (hstart0_5 i a))).WholeWords (EltTy.packing .f32)
  hwxs0_5 : ∀ i : grid0.Coords, EltTy.bits .f32 = 32 ∨ (Rect.unit (s := S64x256x8) (fun _ => 0) (fun a => (Pipeline.Clip.of (cc0_transform_5 i a) (S64x256x8.size a) (S64x8177x8.size a)).extent (S64x256x8.size a)) fun a => (Nat.zero_add _).trans_le (Pipeline.Clip.extent_le (Pipeline.Clip.ok_of (hstart0_5 i a)))).WholeWords (EltTy.packing .f32)

variable [Facts₀]

def dot_S16384x16_S16x64_S16384x64_1_0_0_1_n_n : DotDims S16384x16 S16x64 S16384x64 where
  lhsContracting := [1]
  rhsContracting := [0]
  lhsNonContracting := [0]
  rhsNonContracting := [1]
  lhsBatch := []
  rhsBatch := []
  wf := dot_S16384x16_S16x64_S16384x64_1_0_0_1_n_n_wf
def dot_S16384x64_S64x8_S16384x8_1_0_0_1_n_n : DotDims S16384x64 S64x8 S16384x8 where
  lhsContracting := [1]
  rhsContracting := [0]
  lhsNonContracting := [0]
  rhsNonContracting := [1]
  lhsBatch := []
  rhsBatch := []
  wf := dot_S16384x64_S64x8_S16384x8_1_0_0_1_n_n_wf

abbrev win0_0 : Pipeline.Window sig grid0 :=
  Pipeline.Window.ofSpec (Memref.whole main_v0) S64x8207.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v3) S64x256x8.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x8192 : Shape := ⟨2, ![64, 8192]⟩
abbrev S16x64 : Shape := ⟨2, ![16, 64]⟩
abbrev S64 : Shape := ⟨1, ![64]⟩
abbrev S64x8 : Shape := ⟨2, ![64, 8]⟩
abbrev S8 : Shape := ⟨1, ![8]⟩
abbrev S8177 : Shape := ⟨1, ![8177]⟩
abbrev S8177x1 : Shape := ⟨2, ![8177, 1]⟩
abbrev S16 : Shape := ⟨1, ![16]⟩
abbrev S1x16 : Shape := ⟨2, ![1, 16]⟩
abbrev S8177x16 : Shape := ⟨2, ![8177, 16]⟩
abbrev S_ : Shape := ⟨0, ![]⟩
abbrev S8177x16x1 : Shape := ⟨3, ![8177, 16, 1]⟩
abbrev S64x8177x16 : Shape := ⟨3, ![64, 8177, 16]⟩
abbrev S523328x16 : Shape := ⟨2, ![523328, 16]⟩
abbrev S523328x64 : Shape := ⟨2, ![523328, 64]⟩
abbrev S1x64 : Shape := ⟨2, ![1, 64]⟩
abbrev S523328x8 : Shape := ⟨2, ![523328, 8]⟩
abbrev S1x8 : Shape := ⟨2, ![1, 8]⟩
abbrev S64x8x8177 : Shape := ⟨3, ![64, 8, 8177]⟩

abbrev nBuf : Space → Nat
  | .hbm => 32
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S16x64, .f32⟩
  | .hbm, ⟨2, _⟩ => ⟨S64, .f32⟩
  | .hbm, ⟨3, _⟩ => ⟨S64x8, .f32⟩
  | .hbm, ⟨4, _⟩ => ⟨S8, .f32⟩
  | .hbm, ⟨5, _⟩ => ⟨S8177, .i32⟩
  | .hbm, ⟨6, _⟩ => ⟨S8177x1, .i32⟩
  | .hbm, ⟨7, _⟩ => ⟨S16, .i32⟩
  | .hbm, ⟨8, _⟩ => ⟨S1x16, .i32⟩
  | .hbm, ⟨9, _⟩ => ⟨S8177x16, .i32⟩
  | .hbm, ⟨10, _⟩ => ⟨S8177x16, .i32⟩
  | .hbm, ⟨11, _⟩ => ⟨S8177x16, .i32⟩
  | .hbm, ⟨12, _⟩ => ⟨S_, .i32⟩
  | .hbm, ⟨13, _⟩ => ⟨S8177x16, .i32⟩
  | .hbm, ⟨14, _⟩ => ⟨S8177x16, .i1⟩
  | .hbm, ⟨15, _⟩ => ⟨S_, .i32⟩
  | .hbm, ⟨16, _⟩ => ⟨S8177x16, .i32⟩
  | .hbm, ⟨17, _⟩ => ⟨S8177x16, .i32⟩
  | .hbm, ⟨18, _⟩ => ⟨S8177x16, .i32⟩
  | .hbm, ⟨19, _⟩ => ⟨S8177x16x1, .i32⟩
  | .hbm, ⟨20, _⟩ => ⟨S64x8177x16, .f32⟩
  | .hbm, ⟨21, _⟩ => ⟨S523328x16, .f32⟩
  | .hbm, ⟨22, _⟩ => ⟨S523328x64, .f32⟩
  | .hbm, ⟨23, _⟩ => ⟨S1x64, .f32⟩
  | .hbm, ⟨24, _⟩ => ⟨S523328x64, .f32⟩
  | .hbm, ⟨25, _⟩ => ⟨S523328x64, .f32⟩
  | .hbm, ⟨26, _⟩ => ⟨S523328x64, .f32⟩
  | .hbm, ⟨27, _⟩ => ⟨S523328x8, .f32⟩
  | .hbm, ⟨28, _⟩ => ⟨S1x8, .f32⟩
  | .hbm, ⟨29, _⟩ => ⟨S523328x8, .f32⟩
  | .hbm, ⟨30, _⟩ => ⟨S523328x8, .f32⟩
  | .hbm, ⟨31, _⟩ => ⟨S64x8x8177, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]

class Facts₀ : Prop where
  bcast_S8177_S8177x1_0 : S8177.BroadcastsInDim S8177x1 (![0] : Fin 1 → Fin S8177x1.rank)
  bcast_S16_S1x16_1 : S16.BroadcastsInDim S1x16 (![1] : Fin 1 → Fin S1x16.rank)
  bcast_S8177x1_S8177x16_0_1 : S8177x1.BroadcastsInDim S8177x16 (![0, 1] : Fin 2 → Fin S8177x16.rank)
  bcast_S1x16_S8177x16_0_1 : S1x16.BroadcastsInDim S8177x16 (![0, 1] : Fin 2 → Fin S8177x16.rank)
  bcast_S_S8177x16 : S_.BroadcastsInDim S8177x16 (![] : Fin 0 → Fin S8177x16.rank)
  bcast_S8177x16_S8177x16x1_0_1 : S8177x16.BroadcastsInDim S8177x16x1 (![0, 1] : Fin 2 → Fin S8177x16x1.rank)
  shapeCasts_S64x8177x16_S523328x16 : S64x8177x16.ShapeCasts S523328x16
  bcast_S64_S1x64_1 : S64.BroadcastsInDim S1x64 (![1] : Fin 1 → Fin S1x64.rank)
  bcast_S1x64_S523328x64_0_1 : S1x64.BroadcastsInDim S523328x64 (![0, 1] : Fin 2 → Fin S523328x64.rank)
  bcast_S8_S1x8_1 : S8.BroadcastsInDim S1x8 (![1] : Fin 1 → Fin S1x8.rank)
  bcast_S1x8_S523328x8_0_1 : S1x8.BroadcastsInDim S523328x8 (![0, 1] : Fin 2 → Fin S523328x8.rank)
  shapeCasts_S523328x8_S64x8x8177 : S523328x8.ShapeCasts S64x8x8177
  gather_S64x8192_S8177x16x1_S64x8177x16_0_1_n_n_1_2_641_wf : GatherDims.WF S64x8192 S8177x16x1 S64x8177x16 [0] [1] [] [1] [] 2 ![64, 1]
  dot_S523328x16_S16x64_S523328x64_1_0_0_1_n_n_wf : DotDims.WF S523328x16 S16x64 S523328x64 [1] [0] [0] [1] [] []
  dot_S523328x64_S64x8_S523328x8_1_0_0_1_n_n_wf : DotDims.WF S523328x64 S64x8 S523328x8 [1] [0] [0] [1] [] []

variable [Facts₀]

def gather_S64x8192_S8177x16x1_S64x8177x16_0_1_n_n_1_2_641 : GatherDims S64x8192 S8177x16x1 S64x8177x16 where
  offsetDims := [0]
  collapsedSliceDims := [1]
  operandBatchingDims := []
  startIndicesBatchingDims := []
  startIndexMap := [1]
  indexVectorDim := 2
  sliceSizes := ![64, 1]
  wf := gather_S64x8192_S8177x16x1_S64x8177x16_0_1_n_n_1_2_641_wf
def dot_S523328x16_S16x64_S523328x64_1_0_0_1_n_n : DotDims S523328x16 S16x64 S523328x64 where
  lhsContracting := [1]
  rhsContracting := [0]
  lhsNonContracting := [0]
  rhsNonContracting := [1]
  lhsBatch := []
  rhsBatch := []
  wf := dot_S523328x16_S16x64_S523328x64_1_0_0_1_n_n_wf
def dot_S523328x64_S64x8_S523328x8_1_0_0_1_n_n : DotDims S523328x64 S64x8 S523328x8 where
  lhsContracting := [1]
  rhsContracting := [0]
  lhsNonContracting := [0]
  rhsNonContracting := [1]
  lhsBatch := []
  rhsBatch := []
  wf := dot_S523328x64_S64x8_S523328x8_1_0_0_1_n_n_wf

class Facts : Prop extends Facts₀ where

variable [Facts]
-- ==== Proof.MlpRow.lean ====
/-
  One row of the computation both programs perform: a window of sixteen consecutive samples of one batch row goes
  through a two-layer perceptron. With the window written xw, the hidden unit h is tanh (∑ j, xw j · W1[j, h] + b1[h]),
  and output channel c is ∑ h, hidden h · W2[h, c] + b2[c], all over the extended reals.
-/
import Idealize.ShloMosaic.PureOps.Ideal
import Idealize.ShloMosaic.Lib.ValueIdx

noncomputable section

namespace Cert.ConvMlp

open Idealize.ShloMosaic Idealize.ShloMosaic.ValueIdx

/-- Output channel `c` of the perceptron applied to one window `xw` of sixteen samples: the hidden layer's sixty-four
    units are the hyperbolic tangents of the window's products with the columns of `W1` plus `b1`; the output is their
    product with column `c` of `W2` plus that channel's bias `b2c`. -/
def mlpRow (xw : Fin 16 → EReal) (W1 : (⟨2, ![16, 64]⟩ : Shape).Idx → EReal) (b1 : Fin 64 → EReal)
    (W2 : (⟨2, ![64, 8]⟩ : Shape).Idx → EReal) (b2c : EReal) (c : Fin 8) : EReal :=
  (∑ h : Fin 64, Ideal.tanh ((∑ j : Fin 16, xw j * W1 (ix2 j h)) + b1 h) * W2 (ix2 h c)) + b2c

end Cert.ConvMlp

end
-- ==== Proof.Payload.lean ====
/-
  What one grid point's output block holds, element by element, over the extended reals. The body reads a strip of
  271 consecutive samples of every batch row; output position w of the block sees the sixteen samples w … w + 15 of the
  strip (sixteen shifted copies of the strip laid side by side, then flattened to one row per (batch row, position)).
  The first matrix product, into a zero accumulator, is the sum over the sixteen samples of sample times weight; the
  bias row is broadcast down the rows; the hyperbolic tangent is applied element by element; the second product sums
  over the sixty-four hidden units. Changes of float format are the identity here. So element (b, w, c) of the block is
  the perceptron row of the window starting at strip position w of batch row b.
-/
import proofs.«134349_j34565896798381_1_alg».proof.Proof.Gen.KernelIdeal.Skeleton
import proofs.«134349_j34565896798381_1_alg».proof.Proof.MlpRow
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx Cert.ConvMlp

/-! ## Sixteen shifted copies of the strip, side by side -/

/-- Sixteen pieces, each one wide along the last axis, laid side by side: at last coordinate `j` the result is piece `j`. -/
theorem concat16_apply {α : Type} (p : Fin 16 → (S64x256x1.Idx → α))
    (h : Shape.Concatenates ((List.ofFn fun n : Fin 16 => (⟨S64x256x1, p n⟩ : (s : Shape) × (s.Idx → α))).map (·.1)) S64x256x16 2)
    (b : Fin 64) (w : Fin 256) (j : Fin 16) :
    concatenate S64x256x16 2 (List.ofFn fun n : Fin 16 => (⟨S64x256x1, p n⟩ : (s : Shape) × (s.Idx → α))) h (ix3 b w j)
      = p j (ix3 b w 0) :=
  concatenate_ofFn_unit_apply (t := S64x256x16) (s₁ := S64x256x1) 2 p h rfl rfl (ix3 b w j) j rfl (ix3 b w 0)
    (fun a ha => by
      match a with
      | ⟨0, _⟩ => rfl
      | ⟨1, _⟩ => rfl
      | ⟨2, _⟩ => exact absurd rfl ha)

/-- A window of 256 positions starting at offset `n` fits in the strip of 271 for every `n` below sixteen. -/
theorem shift_fits (n : Fin 16) : S64x271.Slices ![0, n.val] S64x256 :=
  ⟨rfl, fun a => by
    have := n.isLt
    match a with
    | ⟨0, _⟩ => show 0 + 64 ≤ 64; omega
    | ⟨1, _⟩ => show n.val + 256 ≤ 271; omega⟩

/-- The strip shifted by `n`, as a column: positions `n … n + 255` of every batch row. -/
def shifted (v3 : FVec Ideal S64x271 .f32) (n : Fin 16) : FVec Ideal S64x256x1 .f32 :=
  shapeCast S64x256x1 (extractStridedSlice S64x256 ![0, n.val] (shapeCast S64x271 v3 shapeCasts_S64x271_S64x271) (shift_fits n)) shapeCasts_S64x256_S64x256x1

/-- The copy shifted by `n` holds, at (b, w), the strip's sample `w + n` of row `b`. -/
theorem shifted_apply (v3 : FVec Ideal S64x271 .f32) (n : Fin 16) (b : Fin 64) (w : Fin 256) :
    shifted v3 n (ix3 b w 0) = v3 (ix2 b ⟨w.val + n.val, by have := w.isLt; have := n.isLt; omega⟩) := by
  unfold shifted
  refine (shapeCast_apply _ shapeCasts_S64x256_S64x256x1 (ix3 b w (0 : Fin 1)) (ix2 b w) ?_).trans ?_
  · rw [Shape.rowMajor_val_two, Shape.rowMajor_val_three]
    show b.val * 256 + w.val = (b.val * 256 + w.val) * 1 + 0
    omega
  refine (extractStridedSlice_apply ![0, n.val] _ (shift_fits n) (ix2 b w)
    (ix2 b ⟨w.val + n.val, by have := w.isLt; have := n.isLt; omega⟩) ?_).trans ?_
  · intro a
    match a with
    | ⟨0, _⟩ => show b.val = 0 + b.val; omega
    | ⟨1, _⟩ => show w.val + n.val = n.val + w.val; omega
  rw [shapeCast_self]

/-! ## The two matrix products as sums over the contracted index -/

theorem lhsA_0 (i : S16384x64.Idx) (q : dot_S16384x16_S16x64_S16384x64_1_0_0_1_n_n.contr.Idx) :
    (dot_S16384x16_S16x64_S16384x64_1_0_0_1_n_n.lhsIdx i q 0).val = (i 0).val := by
  unfold DotDims.lhsIdx
  rw [dif_neg (show ¬(0 : Fin S16384x16.rank) ∈ dot_S16384x16_S16x64_S16384x64_1_0_0_1_n_n.lhsBatch by decide), dif_pos (show (0 : Fin S16384x16.rank) ∈ dot_S16384x16_S16x64_S16384x64_1_0_0_1_n_n.lhsNonContracting by decide)]
  rfl
theorem lhsA_1 (i : S16384x64.Idx) (q : dot_S16384x16_S16x64_S16384x64_1_0_0_1_n_n.contr.Idx) :
    (dot_S16384x16_S16x64_S16384x64_1_0_0_1_n_n.lhsIdx i q 1).val = (q ⟨0, by decide⟩).val :=
  dot_S16384x16_S16x64_S16384x64_1_0_0_1_n_n.lhsIdx_val_of_single rfl i q
theorem rhsA_0 (i : S16384x64.Idx) (q : dot_S16384x16_S16x64_S16384x64_1_0_0_1_n_n.contr.Idx) :
    (dot_S16384x16_S16x64_S16384x64_1_0_0_1_n_n.rhsIdx i q 0).val = (q ⟨0, by decide⟩).val :=
  dot_S16384x16_S16x64_S16384x64_1_0_0_1_n_n.rhsIdx_val_of_single rfl i q
theorem rhsA_1 (i : S16384x64.Idx) (q : dot_S16384x16_S16x64_S16384x64_1_0_0_1_n_n.contr.Idx) :
    (dot_S16384x16_S16x64_S16384x64_1_0_0_1_n_n.rhsIdx i q 1).val = (i 1).val := by
  unfold DotDims.rhsIdx
  rw [dif_neg (show ¬(1 : Fin S16x64.rank) ∈ dot_S16384x16_S16x64_S16384x64_1_0_0_1_n_n.rhsBatch by decide), dif_pos (show (1 : Fin S16x64.rank) ∈ dot_S16384x16_S16x64_S16384x64_1_0_0_1_n_n.rhsNonContracting by decide)]
  rfl

/-- The first product into a zero accumulator, at row `r` and hidden unit `h`: the sum over the sixteen window samples. -/
theorem matmulA_apply (L : FVec Ideal S16384x16 .bf16) (R : FVec Ideal S16x64 .bf16) (r : Fin 16384) (h : Fin 64) :
    FloatOps.matmul dot_S16384x16_S16x64_S16384x64_1_0_0_1_n_n none L R (constant S16384x64 .f32 0x00000000#32) (ix2 r h)
      = ∑ k : Fin 16, L (ix2 r k) * R (ix2 k h) := by
  rw [Ideal.matmul_constant_zero_apply, ← Equiv.sum_comp (contrEquiv1 dot_S16384x16_S16x64_S16384x64_1_0_0_1_n_n 16 rfl rfl).symm]
  refine Finset.sum_congr rfl fun k _ => ?_
  have hk := contrEquiv1_symm_val dot_S16384x16_S16x64_S16384x64_1_0_0_1_n_n 16 rfl rfl k
  have el : dot_S16384x16_S16x64_S16384x64_1_0_0_1_n_n.lhsIdx (ix2 r h) ((contrEquiv1 dot_S16384x16_S16x64_S16384x64_1_0_0_1_n_n 16 rfl rfl).symm k) = ix2 r k := funext fun a => Fin.ext (by
    match a with
    | ⟨0, _⟩ => exact lhsA_0 _ _
    | ⟨1, _⟩ => exact (lhsA_1 _ _).trans hk)
  have er : dot_S16384x16_S16x64_S16384x64_1_0_0_1_n_n.rhsIdx (ix2 r h) ((contrEquiv1 dot_S16384x16_S16x64_S16384x64_1_0_0_1_n_n 16 rfl rfl).symm k) = ix2 k h := funext fun a => Fin.ext (by
    match a with
    | ⟨0, _⟩ => exact (rhsA_0 _ _).trans hk
    | ⟨1, _⟩ => exact rhsA_1 _ _)
  rw [el, er]

theorem lhsB_0 (i : S16384x8.Idx) (q : dot_S16384x64_S64x8_S16384x8_1_0_0_1_n_n.contr.Idx) :
    (dot_S16384x64_S64x8_S16384x8_1_0_0_1_n_n.lhsIdx i q 0).val = (i 0).val := by
  unfold DotDims.lhsIdx
  rw [dif_neg (show ¬(0 : Fin S16384x64.rank) ∈ dot_S16384x64_S64x8_S16384x8_1_0_0_1_n_n.lhsBatch by decide), dif_pos (show (0 : Fin S16384x64.rank) ∈ dot_S16384x64_S64x8_S16384x8_1_0_0_1_n_n.lhsNonContracting by decide)]
  rfl
theorem lhsB_1 (i : S16384x8.Idx) (q : dot_S16384x64_S64x8_S16384x8_1_0_0_1_n_n.contr.Idx) :
    (dot_S16384x64_S64x8_S16384x8_1_0_0_1_n_n.lhsIdx i q 1).val = (q ⟨0, by decide⟩).val :=
  dot_S16384x64_S64x8_S16384x8_1_0_0_1_n_n.lhsIdx_val_of_single rfl i q
theorem rhsB_0 (i : S16384x8.Idx) (q : dot_S16384x64_S64x8_S16384x8_1_0_0_1_n_n.contr.Idx) :
    (dot_S16384x64_S64x8_S16384x8_1_0_0_1_n_n.rhsIdx i q 0).val = (q ⟨0, by decide⟩).val :=
  dot_S16384x64_S64x8_S16384x8_1_0_0_1_n_n.rhsIdx_val_of_single rfl i q
theorem rhsB_1 (i : S16384x8.Idx) (q : dot_S16384x64_S64x8_S16384x8_1_0_0_1_n_n.contr.Idx) :
    (dot_S16384x64_S64x8_S16384x8_1_0_0_1_n_n.rhsIdx i q 1).val = (i 1).val := by
  unfold DotDims.rhsIdx
  rw [dif_neg (show ¬(1 : Fin S64x8.rank) ∈ dot_S16384x64_S64x8_S16384x8_1_0_0_1_n_n.rhsBatch by decide), dif_pos (show (1 : Fin S64x8.rank) ∈ dot_S16384x64_S64x8_S16384x8_1_0_0_1_n_n.rhsNonContracting by decide)]
  rfl

/-- The second product into a zero accumulator, at row `r` and channel `c`: the sum over the sixty-four hidden units. -/
theorem matmulB_apply (L : FVec Ideal S16384x64 .bf16) (R : FVec Ideal S64x8 .bf16) (r : Fin 16384) (c : Fin 8) :
    FloatOps.matmul dot_S16384x64_S64x8_S16384x8_1_0_0_1_n_n none L R (constant S16384x8 .f32 0x00000000#32) (ix2 r c)
      = ∑ k : Fin 64, L (ix2 r k) * R (ix2 k c) := by
  rw [Ideal.matmul_constant_zero_apply, ← Equiv.sum_comp (contrEquiv1 dot_S16384x64_S64x8_S16384x8_1_0_0_1_n_n 64 rfl rfl).symm]
  refine Finset.sum_congr rfl fun k _ => ?_
  have hk := contrEquiv1_symm_val dot_S16384x64_S64x8_S16384x8_1_0_0_1_n_n 64 rfl rfl k
  have el : dot_S16384x64_S64x8_S16384x8_1_0_0_1_n_n.lhsIdx (ix2 r c) ((contrEquiv1 dot_S16384x64_S64x8_S16384x8_1_0_0_1_n_n 64 rfl rfl).symm k) = ix2 r k := funext fun a => Fin.ext (by
    match a with
    | ⟨0, _⟩ => exact lhsB_0 _ _
    | ⟨1, _⟩ => exact (lhsB_1 _ _).trans hk)
  have er : dot_S16384x64_S64x8_S16384x8_1_0_0_1_n_n.rhsIdx (ix2 r c) ((contrEquiv1 dot_S16384x64_S64x8_S16384x8_1_0_0_1_n_n 64 rfl rfl).symm k) = ix2 k c := funext fun a => Fin.ext (by
    match a with
    | ⟨0, _⟩ => exact (rhsB_0 _ _).trans hk
    | ⟨1, _⟩ => exact rhsB_1 _ _)
  rw [el, er]

/-! ## The hidden layer and the output, at an element -/

/-- Row `b · 256 + w` of the flattened windows. -/
abbrev rowOf (b : Fin 64) (w : Fin 256) : Fin 16384 := ⟨b.val * 256 + w.val, by have := b.isLt; have := w.isLt; omega⟩

/-- Hidden unit `h` of row (b, w): the hyperbolic tangent of the window's sixteen samples against column `h` of the
    first weights, plus that unit's bias. -/
theorem hidden_apply (v3 : FVec Ideal S64x271 .f32) (v40 : FVec Ideal S16x64 .f32) (v42 : FVec Ideal S1x64 .f32)
    (b : Fin 64) (w : Fin 256) (h : Fin 64) :
    k0_pay2 (F := Ideal) v3 v40 v42 (ix2 (rowOf b w) h)
      = Ideal.tanh ((∑ j : Fin 16, v3 (ix2 b ⟨w.val + j.val, by have := w.isLt; have := j.isLt; omega⟩) * v40 (ix2 j h))
          + v42 (ix2 (0 : Fin 1) h)) := by
  unfold k0_pay2
  show Ideal.tanh (FloatOps.matmul (F := Ideal) dot_S16384x16_S16x64_S16384x64_1_0_0_1_n_n none _ _ (constant (F := Ideal) S16384x64 .f32 0x00000000#32) (ix2 (rowOf b w) h)
      + broadcastTo S16384x64 (shapeCast S1x64 v42 shapeCasts_S1x64_S1x64) broadcasts_S1x64_S16384x64 (ix2 (rowOf b w) h)) = _
  refine congrArg Ideal.tanh (congrArg₂ (· + ·) ?_ ?_)
  · refine (matmulA_apply _ _ (rowOf b w) h).trans (Finset.sum_congr rfl fun k _ => congrArg₂ (· * ·) ?_ rfl)
    refine (truncf_apply _ bitsLt_bf16_f32 (ix2 (rowOf b w) k)).trans ?_
    refine (shapeCast_apply _ shapeCasts_S64x256x16_S16384x16 (ix2 (rowOf b w) k) (ix3 b w k) ?_).trans ?_
    · rw [Shape.rowMajor_val_three, Shape.rowMajor_val_two]
      rfl
    exact (concat16_apply (shifted v3) _ b w k).trans (shifted_apply v3 k b w)
  · refine (broadcastTo_1b_ab_apply _ broadcasts_S1x64_S16384x64 (rowOf b w) h).trans ?_
    rw [shapeCast_self]

/-- Element (b, w, c) of the stored block: the hidden row against column `c` of the second weights, plus the channel's bias. -/
theorem out_apply (v48 : FVec Ideal S16384x64 .bf16) (v49 : FVec Ideal S64x8 .f32) (v51 : FVec Ideal S1x8 .f32)
    (b : Fin 64) (w : Fin 256) (c : Fin 8) :
    k0_pay1 (F := Ideal) v48 v49 v51 (ix3 b w c)
      = (∑ h : Fin 64, v48 (ix2 (rowOf b w) h) * v49 (ix2 h c)) + v51 (ix2 (0 : Fin 1) c) := by
  unfold k0_pay1
  refine (shapeCast_apply _ shapeCasts_S16384x8_S64x256x8 (ix3 b w c) (ix2 (rowOf b w) c) ?_).trans ?_
  · rw [Shape.rowMajor_val_three, Shape.rowMajor_val_two]
    rfl
  show FloatOps.matmul (F := Ideal) dot_S16384x64_S64x8_S16384x8_1_0_0_1_n_n none v48 _ (constant (F := Ideal) S16384x8 .f32 0x00000000#32) (ix2 (rowOf b w) c)
      + broadcastTo S16384x8 (shapeCast S1x8 v51 shapeCasts_S1x8_S1x8) broadcasts_S1x8_S16384x8 (ix2 (rowOf b w) c) = _
  refine congrArg₂ (· + ·) ((matmulB_apply _ _ (rowOf b w) c).trans (Finset.sum_congr rfl fun k _ => rfl)) ?_
  refine (broadcastTo_1b_ab_apply _ broadcasts_S1x8_S16384x8 (rowOf b w) c).trans ?_
  rw [shapeCast_self]

/-- THE BLOCK AT AN ELEMENT: from the strip `v3`, the weights and the bias rows, element (b, w, c) of what the body stores
    is the perceptron row of the window of sixteen samples starting at strip position `w` of batch row `b`. -/
theorem block_apply (v3 : FVec Ideal S64x271 .f32) (v40 : FVec Ideal S16x64 .f32) (v42 : FVec Ideal S1x64 .f32)
    (v49 : FVec Ideal S64x8 .f32) (v51 : FVec Ideal S1x8 .f32) (b : Fin 64) (w : Fin 256) (c : Fin 8) :
    k0_pay1 (F := Ideal) (k0_pay2 (F := Ideal) v3 v40 v42) v49 v51 (ix3 b w c)
      = mlpRow (fun j => v3 (ix2 b ⟨w.val + j.val, by have := w.isLt; have := j.isLt; omega⟩)) v40
          (fun h => v42 (ix2 (0 : Fin 1) h)) v49 (v51 (ix2 (0 : Fin 1) c)) c := by
  rw [out_apply]
  unfold mlpRow
  exact congrArg₂ (· + ·) (Finset.sum_congr rfl fun h _ => congrArg₂ (· * ·) (hidden_apply v3 v40 v42 b w h) rfl) rfl

end Cert.KernelIdeal.BlockValue

end
-- ==== Proof.BlockRead.lean ====
/-
  What the output's staging buffer holds after the body at a grid point, as a value. The body stores one block that
  covers the buffer, so the buffer holds that block: the perceptron applied to the strip of 271 samples the point reads,
  which starts at sample 256 · t of the zero-padded signal. The other four operands are whole arrays fetched once, so
  their blocks are the arrays themselves at every point.
-/
import proofs.«134349_j34565896798381_1_alg».proof.Proof.Gen.KernelIdeal.Frame
import proofs.«134349_j34565896798381_1_alg».proof.Proof.Payload
import Idealize.ShloMosaic.Lib.Pipeline.Value
import Idealize.ShloMosaic.Lib.ValueIdx
import Idealize.ShloMosaic.Lib.Tactic

set_option maxRecDepth 16384

noncomputable section

namespace Cert.KernelIdeal.ArrayValue

open Cert.KernelIdeal Cert.KernelIdeal.Gen Idealize.ShloMosaic Idealize.ShloMosaic.TcCoe Idealize.SL.Sem Idealize.ShloMosaic.ValueIdx
open Idealize.ShloMosaic.Pipeline (Dat)
open Cert.ConvMlp Cert.KernelIdeal.BlockValue

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The strip of 271 consecutive samples of every batch row that the body at coordinates `i` loads from the signal. -/
def strip (i : grid0.Coords) (x0 : Vec F S64x8207 .f32) : Vec F S64x271 .f32 :=
  View.ld x0 (Rect.unit (s := S64x8207) (k0_off1 i) S64x271.size (k0_off1_inb i))

/-- The body's one store covers the output's staging buffer, so the buffer ends holding the stored block: the
    perceptron's output over the loaded strip, weights and biases. -/
theorem out_eq (c : Dev nD) (i : grid0.Coords) (arg1 : Memref sig .tc .vmem S64x8207 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S64x8 .f32) (harg4 : arg4.IsWhole) (arg5 : Memref sig .tc .vmem S1x8 .f32) (harg5 : arg5.IsWhole) (arg6 : Memref sig .tc .vmem S64x256x8 .f32) (harg6 : arg6.IsWhole)
    (x0 : Vec F S64x8207 .f32) (x1 : Vec F S16x64 .f32) (x2 : Vec F S1x64 .f32) (x3 : Vec F S64x8 .f32) (x4 : Vec F S1x8 .f32) :
    out0_A_5 c i arg1 harg1 arg2 harg2 arg3 harg3 arg4 harg4 arg5 harg5 arg6 harg6 x0 x1 x2 x3 x4 = k0_pay1 (k0_pay2 (strip i x0) x1 x2) x3 x4 := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_run_names
  rw [View.canon_unit_zero hz3]
  simp only [View.readAt_eq_ld, harg1.read_unread, harg2.read_unread, harg3.read_unread, harg4.read_unread, harg5.read_unread,
    View.ld_unit_zero (S := S16x64) hz2, View.ld_unit_zero (S := S1x64) hz2, View.ld_unit_zero (S := S64x8) hz2,
    View.ld_unit_zero (S := S1x8) hz2]
  rfl

/-! ## The strip a point reads -/

/-- The grid has thirty-two points. -/
theorem t_lt (t : Fin cfg0.N) : t.val < 32 := lt_of_lt_of_eq t.isLt N_0

/-- Decided over the thirty-two points: the strip starts at row 0 and at sample 256 · t. -/
theorem off_facts : ∀ t : Fin cfg0.N, k0_off1 (grid0.coords t) 0 = 0 ∧ k0_off1 (grid0.coords t) 1 = 256 * t.val :=
  (by decide +kernel : ∀ t : Fin grid0.N, k0_off1 (grid0.coords t) 0 = 0 ∧ k0_off1 (grid0.coords t) 1 = 256 * t.val)

/-- Sample q of the strip at point t is sample 256 · t + q of the padded signal. -/
theorem strip_apply (t : Fin cfg0.N) (x0 : Vec F S64x8207 .f32) (b : Fin 64) (q : Fin 271) :
    strip (grid0.coords t) x0 (ix2 b q)
      = x0 (ix2 b ⟨256 * t.val + q.val, by have := t_lt t; have := q.isLt; omega⟩) := by
  unfold strip
  show x0 _ = x0 _
  congr 1
  funext a
  apply Fin.ext
  match a with
  | ⟨0, _⟩ => show k0_off1 (grid0.coords t) 0 + 1 * b.val = b.val; rw [(off_facts t).1]; omega
  | ⟨1, _⟩ => show k0_off1 (grid0.coords t) 1 + 1 * q.val = 256 * t.val + q.val; rw [(off_facts t).2]; omega

/-! ## The operands' blocks are the operands -/

variable (m : (ℓ : Loc nD τ sig) → Buf (Elt F) ℓ)

theorem index0 : ∀ t : Fin cfg0.N, win0_0.index t 0 = 0 ∧ win0_0.index t 1 = 0 :=
  (by decide +kernel : ∀ t : Fin grid0.N, win0_0.index t 0 = 0 ∧ win0_0.index t 1 = 0)
/-- Operand 0's block at a point, as contents of its literal shape. -/
abbrev sigBlk (c : Dev nD) (t : Fin cfg0.N) : Vec F S64x8207 .f32 := iblk m c 0 t
/-- Operand 0 is staged whole (its block index is zero on both axes at every point): its block is the array. -/
theorem sigBlk_eq (c : Dev nD) (t : Fin cfg0.N) : sigBlk m c t = V m c main_v0 := by
  funext y
  unfold sigBlk iblk
  rw [View.read_apply]
  show V m c main_v0 _ = V m c main_v0 y
  congr 1
  funext a
  apply Fin.ext
  match a with
  | ⟨0, _⟩ => show win0_0.index t 0 * 64 + 1 * (y 0).val = (y 0).val; rw [(index0 t).1]; omega
  | ⟨1, _⟩ => show win0_0.index t 1 * 8207 + 1 * (y 1).val = (y 1).val; rw [(index0 t).2]; omega

theorem index1 : ∀ t : Fin cfg0.N, win0_1.index t 0 = 0 ∧ win0_1.index t 1 = 0 :=
  (by decide +kernel : ∀ t : Fin grid0.N, win0_1.index t 0 = 0 ∧ win0_1.index t 1 = 0)
/-- Operand 1's block at a point, as contents of its literal shape. -/
abbrev w1Blk (c : Dev nD) (t : Fin cfg0.N) : Vec F S16x64 .f32 := iblk m c 1 t
/-- Operand 1 is staged whole (its block index is zero on both axes at every point): its block is the array. -/
theorem w1Blk_eq (c : Dev nD) (t : Fin cfg0.N) : w1Blk m c t = V m c main_arg1 := by
  funext y
  unfold w1Blk iblk
  rw [View.read_apply]
  show V m c main_arg1 _ = V m c main_arg1 y
  congr 1
  funext a
  apply Fin.ext
  match a with
  | ⟨0, _⟩ => show win0_1.index t 0 * 16 + 1 * (y 0).val = (y 0).val; rw [(index1 t).1]; omega
  | ⟨1, _⟩ => show win0_1.index t 1 * 64 + 1 * (y 1).val = (y 1).val; rw [(index1 t).2]; omega

theorem index2 : ∀ t : Fin cfg0.N, win0_2.index t 0 = 0 ∧ win0_2.index t 1 = 0 :=
  (by decide +kernel : ∀ t : Fin grid0.N, win0_2.index t 0 = 0 ∧ win0_2.index t 1 = 0)
/-- Operand 2's block at a point, as contents of its literal shape. -/
abbrev b1Blk (c : Dev nD) (t : Fin cfg0.N) : Vec F S1x64 .f32 := iblk m c 2 t
/-- Operand 2 is staged whole (its block index is zero on both axes at every point): its block is the array. -/
theorem b1Blk_eq (c : Dev nD) (t : Fin cfg0.N) : b1Blk m c t = V m c main_v1 := by
  funext y
  unfold b1Blk iblk
  rw [View.read_apply]
  show V m c main_v1 _ = V m c main_v1 y
  congr 1
  funext a
  apply Fin.ext
  match a with
  | ⟨0, _⟩ => show win0_2.index t 0 * 1 + 1 * (y 0).val = (y 0).val; rw [(index2 t).1]; omega
  | ⟨1, _⟩ => show win0_2.index t 1 * 64 + 1 * (y 1).val = (y 1).val; rw [(index2 t).2]; omega

theorem index3 : ∀ t : Fin cfg0.N, win0_3.index t 0 = 0 ∧ win0_3.index t 1 = 0 :=
  (by decide +kernel : ∀ t : Fin grid0.N, win0_3.index t 0 = 0 ∧ win0_3.index t 1 = 0)
/-- Operand 3's block at a point, as contents of its literal shape. -/
abbrev w2Blk (c : Dev nD) (t : Fin cfg0.N) : Vec F S64x8 .f32 := iblk m c 3 t
/-- Operand 3 is staged whole (its block index is zero on both axes at every point): its block is the array. -/
theorem w2Blk_eq (c : Dev nD) (t : Fin cfg0.N) : w2Blk m c t = V m c main_arg3 := by
  funext y
  unfold w2Blk iblk
  rw [View.read_apply]
  show V m c main_arg3 _ = V m c main_arg3 y
  congr 1
  funext a
  apply Fin.ext
  match a with
  | ⟨0, _⟩ => show win0_3.index t 0 * 64 + 1 * (y 0).val = (y 0).val; rw [(index3 t).1]; omega
  | ⟨1, _⟩ => show win0_3.index t 1 * 8 + 1 * (y 1).val = (y 1).val; rw [(index3 t).2]; omega

theorem index4 : ∀ t : Fin cfg0.N, win0_4.index t 0 = 0 ∧ win0_4.index t 1 = 0 :=
  (by decide +kernel : ∀ t : Fin grid0.N, win0_4.index t 0 = 0 ∧ win0_4.index t 1 = 0)
/-- Operand 4's block at a point, as contents of its literal shape. -/
abbrev b2Blk (c : Dev nD) (t : Fin cfg0.N) : Vec F S1x8 .f32 := iblk m c 4 t
/-- Operand 4 is staged whole (its block index is zero on both axes at every point): its block is the array. -/
theorem b2Blk_eq (c : Dev nD) (t : Fin cfg0.N) : b2Blk m c t = V m c main_v2 := by
  funext y
  unfold b2Blk iblk
  rw [View.read_apply]
  show V m c main_v2 _ = V m c main_v2 y
  congr 1
  funext a
  apply Fin.ext
  match a with
  | ⟨0, _⟩ => show win0_4.index t 0 * 1 + 1 * (y 0).val = (y 0).val; rw [(index4 t).1]; omega
  | ⟨1, _⟩ => show win0_4.index t 1 * 8 + 1 * (y 1).val = (y 1).val; rw [(index4 t).2]; omega

/-- The arrays the region finds, at their literal shapes. -/
abbrev sigArr (c : Dev nD) : Vec F S64x8207 .f32 := V m c main_v0
abbrev w1Arr (c : Dev nD) : Vec F S16x64 .f32 := V m c main_arg1
abbrev b1Arr (c : Dev nD) : Vec F S1x64 .f32 := V m c main_v1
abbrev w2Arr (c : Dev nD) : Vec F S64x8 .f32 := V m c main_arg3
abbrev b2Arr (c : Dev nD) : Vec F S1x8 .f32 := V m c main_v2

end Cert.KernelIdeal.ArrayValue

namespace Cert.KernelIdeal.ArrayValue

open Cert.KernelIdeal Cert.KernelIdeal.Gen Idealize.ShloMosaic Idealize.ShloMosaic.TcCoe Idealize.SL.Sem Idealize.ShloMosaic.ValueIdx
open Cert.ConvMlp Cert.KernelIdeal.BlockValue

/-- The perceptron row depends only on its window, weights and biases. -/
theorem mlpRow_congr {xw xw' : Fin 16 → EReal} {W1 W1' : (⟨2, ![16, 64]⟩ : Shape).Idx → EReal} {b1 b1' : Fin 64 → EReal}
    {W2 W2' : (⟨2, ![64, 8]⟩ : Shape).Idx → EReal} {b2c b2c' : EReal} (c : Fin 8)
    (h1 : xw = xw') (h2 : W1 = W1') (h3 : b1 = b1') (h4 : W2 = W2') (h5 : b2c = b2c') :
    mlpRow xw W1 b1 W2 b2c c = mlpRow xw' W1' b1' W2' b2c' c := by
  subst h1 h2 h3 h4 h5
  rfl

variable (m : (ℓ : Loc nD τ sig) → Buf (Elt Ideal) ℓ)

/-- THE STAGING BUFFER AT AN ELEMENT: after the body at point t, element (b, w, ch) of the output's staging buffer is the
    perceptron row of the sixteen samples from 256 · t + w on of batch row b of the padded signal. -/
theorem outs_apply (c : Dev nD) (t : Fin cfg0.N) (b : Fin 64) (w : Fin 256) (ch : Fin 8) :
    outsAt0 (F := Ideal) m c t (ix3 b w ch)
      = mlpRow (fun j => sigArr m c (ix2 b ⟨256 * t.val + w.val + j.val, by
            have := t_lt t; have := w.isLt; have := j.isLt; omega⟩))
          (w1Arr m c) (fun h => b1Arr m c (ix2 (0 : Fin 1) h)) (w2Arr m c) (b2Arr m c (ix2 (0 : Fin 1) ch)) ch := by
  have ht : t.val < 32 := t_lt t
  unfold outsAt0
  refine (congrFun (out_eq (F := Ideal) c (grid0.coords t) (ms0_0 t) (hs0_0 t) (ms0_1 t) (hs0_1 t) (ms0_2 t) (hs0_2 t) (ms0_3 t) (hs0_3 t)
    (ms0_4 t) (hs0_4 t) (ms0_5 t) (hs0_5 t) (sigBlk m c t) (w1Blk m c t) (b1Blk m c t) (w2Blk m c t) (b2Blk m c t)) (ix3 b w ch)).trans ?_
  refine (block_apply (strip (grid0.coords t) (sigBlk m c t)) (w1Blk m c t) (b1Blk m c t) (w2Blk m c t) (b2Blk m c t) b w ch).trans ?_
  refine mlpRow_congr ch (funext fun j => ?_) (w1Blk_eq m c t) (funext fun h => congrFun (b1Blk_eq m c t) (ix2 (0 : Fin 1) h))
    (w2Blk_eq m c t) (congrFun (b2Blk_eq m c t) (ix2 (0 : Fin 1) ch))
  refine (strip_apply t (sigBlk m c t) b ⟨w.val + j.val, by have := w.isLt; have := j.isLt; omega⟩).trans ?_
  rw [sigBlk_eq m c t]
  show sigArr m c _ = sigArr m c _
  congr 1
  funext a
  apply Fin.ext
  match a with
  | ⟨0, _⟩ => rfl
  | ⟨1, _⟩ => show 256 * t.val + (w.val + j.val) = 256 * t.val + w.val + j.val; omega

end Cert.KernelIdeal.ArrayValue

end
-- ==== Proof.KernelArray.lean ====
/-
  The kernel's result as a value. Every grid point writes back the part of its block that lies inside the output
  array (the last block overhangs positions 8177 … 8191, which are cut); every position of the array lies in the block
  of the point w div 256; so the array ends holding, at (b, w, c), the perceptron row of the sixteen samples from w on
  of batch row b of the padded signal. Those samples lie inside the unpadded signal because w + 15 ≤ 8191. The biases
  reach the kernel as one-row matrices. The last host operation reshapes the array by its flat position.
-/
import proofs.«134349_j34565896798381_1_alg».proof.Proof.BlockRead
import Idealize.ShloMosaic.Lib.StableHlo.Run
import Idealize.ShloMosaic.Lib.KernelVsHost
import Idealize.ShloMosaic.Lib.ValueLayout

set_option maxRecDepth 16384

noncomputable section

namespace Cert.KernelIdeal.ArrayValue

open Cert.KernelIdeal Cert.KernelIdeal.Gen Idealize.ShloMosaic Idealize.ShloMosaic.TcCoe Idealize.SL.Sem Idealize.ShloMosaic.ValueIdx
open Idealize.ShloMosaic.Pipeline (Dat)
open Cert.ConvMlp Cert.KernelIdeal.BlockValue

variable (m : (ℓ : Loc nD τ sig) → Buf (Elt Ideal) ℓ) (ρ : Dev nD → PrngReg)

/-! ## The output array as one function -/

/-- Element (b, w, ch) of the pallas_call's output: the perceptron row of the window of the padded signal `xp` starting
    at sample w of batch row b. -/
def outAt (xp : FVec Ideal S64x8207 .f32) (W1 : FVec Ideal S16x64 .f32) (b1r : FVec Ideal S1x64 .f32)
    (W2 : FVec Ideal S64x8 .f32) (b2r : FVec Ideal S1x8 .f32) (b : Fin 64) (w : Fin 8177) (ch : Fin 8) : EReal :=
  mlpRow (fun j => xp (ix2 b ⟨w.val + j.val, by have := w.isLt; have := j.isLt; omega⟩)) W1
    (fun h => b1r (ix2 (0 : Fin 1) h)) W2 (b2r (ix2 (0 : Fin 1) ch)) ch

/-- The whole output array, over the arrays the region finds. -/
def outArr (c : Dev nD) : Buf (Elt Ideal) ((c : Thread nD τ).loc main_v3) := fun i =>
  outAt (sigArr m c) (w1Arr m c) (b1Arr m c) (w2Arr m c) (b2Arr m c) ⟨(i 0).val, (i 0).isLt⟩ ⟨(i 1).val, (i 1).isLt⟩ ⟨(i 2).val, (i 2).isLt⟩

/-! ## The output window's blocks -/

/-- Decided over the thirty-two points: the block index is (0, t, 0), -/
theorem index5 : ∀ t : Fin cfg0.N, win0_5.index t 0 = 0 ∧ win0_5.index t 1 = t.val ∧ win0_5.index t 2 = 0 :=
  (by decide +kernel : ∀ t : Fin grid0.N, win0_5.index t 0 = 0 ∧ win0_5.index t 1 = t.val ∧ win0_5.index t 2 = 0)
/-- and the part of the block inside the array is 64 × min 256 (8177 − 256 t) × 8. -/
theorem xsize5 : ∀ t : Fin cfg0.N, win0_5.xsize (grid0.coords t) 0 = 64
    ∧ win0_5.xsize (grid0.coords t) 1 = min 256 (8177 - 256 * t.val) ∧ win0_5.xsize (grid0.coords t) 2 = 8 :=
  (by decide +kernel : ∀ t : Fin grid0.N, win0_5.xsize (grid0.coords t) 0 = 64
    ∧ win0_5.xsize (grid0.coords t) 1 = min 256 (8177 - 256 * t.val) ∧ win0_5.xsize (grid0.coords t) 2 = 8)

/-- What point t writes back is its block of the output function. -/
theorem flushed_eq (c : Dev nD) (t : Fin cfg0.N) (hf : (cfg0.win 5).flush t = true) :
    (dats m 0 c).flushed 5 t = ((cfg0.win 5).blk t).view.read (Elt Ideal) (outArr m c) := by
  have ht := t_lt t
  show (cfg0.win 5).cut (grid0.coords t) ((dats m 0 c).after 5 t) = _
  rw [after0_5]
  funext y
  rw [View.read_apply]
  show outsAt0 m c t ((cfg0.win 5).xinj (grid0.coords t) y) = outArr m c (((cfg0.win 5).blk t).view.emb y)
  have h0 : (y 0).val < 64 := by
    have := (y 0).isLt
    change (y 0).val < win0_5.xsize (grid0.coords t) 0 at this
    rwa [(xsize5 t).1] at this
  have h1 : (y 1).val < min 256 (8177 - 256 * t.val) := by
    have := (y 1).isLt
    change (y 1).val < win0_5.xsize (grid0.coords t) 1 at this
    rwa [(xsize5 t).2.1] at this
  have h2 : (y 2).val < 8 := by
    have := (y 2).isLt
    change (y 2).val < win0_5.xsize (grid0.coords t) 2 at this
    rwa [(xsize5 t).2.2] at this
  have hx : (cfg0.win 5).xinj (grid0.coords t) y
      = ix3 (⟨(y 0).val, h0⟩ : Fin 64) (⟨(y 1).val, by omega⟩ : Fin 256) (⟨(y 2).val, h2⟩ : Fin 8) := funext fun a => Fin.ext (by
    match a with
    | ⟨0, _⟩ => rfl
    | ⟨1, _⟩ => rfl
    | ⟨2, _⟩ => rfl)
  have he : ((cfg0.win 5).blk t).view.emb y
      = ix3 (⟨(y 0).val, h0⟩ : Fin 64) (⟨256 * t.val + (y 1).val, by omega⟩ : Fin 8177) (⟨(y 2).val, h2⟩ : Fin 8) := funext fun a => Fin.ext (by
    match a with
    | ⟨0, _⟩ => show win0_5.index t 0 * 64 + 1 * (y 0).val = (y 0).val; rw [(index5 t).1]; omega
    | ⟨1, _⟩ => show win0_5.index t 1 * 256 + 1 * (y 1).val = 256 * t.val + (y 1).val; rw [(index5 t).2.1]; omega
    | ⟨2, _⟩ => show win0_5.index t 2 * 8 + 1 * (y 2).val = (y 2).val; rw [(index5 t).2.2]; omega)
  rw [hx, he, outs_apply]
  rfl

/-- Every position of the output array lies in the block of the point w div 256. -/
theorem covered (c : Dev nD) (i : ((cfg0.win 5).arr.view.loc (c.tc : Thread nD τ)).2.ty.Idx) :
    ∃ t : Fin cfg0.N, (cfg0.win 5).flush t = true ∧ i ∈ ((cfg0.win 5).blk t).view.set := by
  have h0 : (i 0).val < 64 := (i 0).isLt
  have h1 : (i 1).val < 8177 := (i 1).isLt
  have h2 : (i 2).val < 8 := (i 2).isLt
  have hN : (i 1).val / 256 < cfg0.N := by rw [show cfg0.N = 32 from N_0]; omega
  refine ⟨⟨(i 1).val / 256, hN⟩, flush0_5 _, ?_⟩
  show i ∈ ((View.whole main_v3).slice (win0_5.rect ⟨(i 1).val / 256, hN⟩)).set
  rw [View.set_slice_whole, Rect.mem_set_unit]
  intro a
  match a with
  | ⟨0, _⟩ =>
    show win0_5.index ⟨(i 1).val / 256, hN⟩ 0 * 64 ≤ (i 0).val
      ∧ (i 0).val < win0_5.index ⟨(i 1).val / 256, hN⟩ 0 * 64 + win0_5.xsize (grid0.coords ⟨(i 1).val / 256, hN⟩) 0
    rw [(index5 _).1, (xsize5 _).1]
    omega
  | ⟨1, _⟩ =>
    show win0_5.index ⟨(i 1).val / 256, hN⟩ 1 * 256 ≤ (i 1).val
      ∧ (i 1).val < win0_5.index ⟨(i 1).val / 256, hN⟩ 1 * 256 + win0_5.xsize (grid0.coords ⟨(i 1).val / 256, hN⟩) 1
    rw [(index5 _).2.1, (xsize5 _).2.1]
    show (i 1).val / 256 * 256 ≤ (i 1).val ∧ (i 1).val < (i 1).val / 256 * 256 + min 256 (8177 - 256 * ((i 1).val / 256))
    omega
  | ⟨2, _⟩ =>
    show win0_5.index ⟨(i 1).val / 256, hN⟩ 2 * 8 ≤ (i 2).val
      ∧ (i 2).val < win0_5.index ⟨(i 1).val / 256, hN⟩ 2 * 8 + win0_5.xsize (grid0.coords ⟨(i 1).val / 256, hN⟩) 2
    rw [(index5 _).2.2, (xsize5 _).2.2]
    omega

/-- So the output array ends holding the output function. -/
theorem final_out (c : Dev nD) : (dats m 0 c).arrAt 5 cfg0.N = outArr m c :=
  (dats m 0 c).arrAt_eq_of_cover 5 (outArr m c) (flushed_eq m c) (covered c)

/-! ## The host operations before the region -/

/-- The padded signal the region finds: the signal with fifteen more samples per row, all the converted integer zero. -/
theorem sig_term (c : Dev nD) : sigArr m c
    = pad S64x8207 ![0, 0] ![0, 15] ![0, 0] (m ((c : Thread nD τ).loc main_arg0))
        (sitofp (F := Ideal) .f32 (constantI S_ 32 0#32)) pads_S64x8192_S64x8207_000_0150 h_S_ := by
  show V m c main_v0 = _
  dsimp only [V, V0]
  simp only [hostOps0, hostOps0_1, hostOps0_2, List.flatten_cons, List.flatten_nil, List.append_nil, List.cons_append, List.nil_append]
  after_results
  rfl

/-- Inside the signal the padded signal is the signal. -/
theorem sig_apply (c : Dev nD) (b : Fin 64) (n : Fin 8192) :
    sigArr m c (ix2 b ⟨n.val, by have := n.isLt; omega⟩) = m ((c : Thread nD τ).loc main_arg0) (ix2 b n) := by
  rw [sig_term]
  refine pad_apply_of_inside ![0, 0] ![0, 15] ![0, 0] _ _ pads_S64x8192_S64x8207_000_0150 h_S_ _ (ix2 b n) fun a => ?_
  match a with
  | ⟨0, _⟩ => show b.val = 0 + b.val * (0 + 1); omega
  | ⟨1, _⟩ => show n.val = 0 + n.val * (0 + 1); omega

/-- The first bias as the one-row matrix the region finds. -/
theorem b1_term (c : Dev nD) : b1Arr m c = shapeCast S1x64 (m ((c : Thread nD τ).loc main_arg2)) shapeCasts_S64_S1x64 := by
  show V m c main_v1 = _
  dsimp only [V, V0]
  simp only [hostOps0, hostOps0_1, hostOps0_2, List.flatten_cons, List.flatten_nil, List.append_nil, List.cons_append, List.nil_append]
  after_results
  rfl

theorem b1_apply (c : Dev nD) (h : Fin 64) : b1Arr m c (ix2 (0 : Fin 1) h) = m ((c : Thread nD τ).loc main_arg2) (ix1 h) := by
  rw [b1_term]
  exact shapeCast_a_1a_apply _ shapeCasts_S64_S1x64 (0 : Fin 1) h

/-- The second bias likewise. -/
theorem b2_term (c : Dev nD) : b2Arr m c = shapeCast S1x8 (m ((c : Thread nD τ).loc main_arg4)) shapeCasts_S8_S1x8 := by
  show V m c main_v2 = _
  dsimp only [V, V0]
  simp only [hostOps0, hostOps0_1, hostOps0_2, List.flatten_cons, List.flatten_nil, List.append_nil, List.cons_append, List.nil_append]
  after_results
  rfl

theorem b2_apply (c : Dev nD) (ch : Fin 8) : b2Arr m c (ix2 (0 : Fin 1) ch) = m ((c : Thread nD τ).loc main_arg4) (ix1 ch) := by
  rw [b2_term]
  exact shapeCast_a_1a_apply _ shapeCasts_S8_S1x8 (0 : Fin 1) ch

theorem w1_eq (c : Dev nD) : w1Arr m c = m ((c : Thread nD τ).loc main_arg1) := V_main_arg1 m c
theorem w2_eq (c : Dev nD) : w2Arr m c = m ((c : Thread nD τ).loc main_arg3) := V_main_arg3 m c

/-! ## The host operation after the region, and the run -/

/-- The program's result: the output array reshaped by flat position. -/
def result (c : Dev nD) : Buf (Elt Ideal) ((c : Thread nD τ).loc main_v4) :=
  shapeCast S64x8x8177 (outArr m c) shapeCasts_S64x8177x8_S64x8x8177

theorem tail_eq (c : Dev nD) : Pipeline.afterTail₀ cfgs (dats m) 0 (V0 m) [hostOps1] c main_v4 = result m c := by
  unfold Pipeline.afterTail₀
  show StableHlo.after hostOps1 _ (Proc.devRef .tc main_v4) = _
  after_results
  unfold result
  exact congrArg (fun x => shapeCast S64x8x8177 x shapeCasts_S64x8177x8_S64x8x8177)
    ((Pipeline.withArrays_arr spec0 launch0.win.arr_inj c _ _ 5).trans (final_out m c))

/-- The run, read: the result at the reshaped output function, the arguments unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v4 (Pipeline.mem_restRefs_of main_v4 (by decide) (by decide))).trans (tail_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c))⟩)
    (run_main m ρ)

end Cert.KernelIdeal.ArrayValue

end
-- ==== Proof.RefRows.lean ====
/-
  The reference, row by row, over the extended reals. Its table of positions holds w + k at (w, k), never negative and
  at most 8191, so the gather of the samples' columns reads sample w + k of every batch row, unclamped. Flattened, row
  r of the windows is the window starting at r mod 8177 of batch row r div 8177; the two matrix products are sums over
  the contracted index, the biases are broadcast down the rows, and the hyperbolic tangent is applied element by
  element: row r, channel c of the result before the final reshape is the perceptron row of that window.
-/
import proofs.«134349_j34565896798381_1_alg».proof.Proof.Gen.ReferenceIdeal.Read
import proofs.«134349_j34565896798381_1_alg».proof.Proof.MlpRow
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.ValueIdx
open Idealize.ShloMosaic.StableHlo.Predicate Cert.ConvMlp

/-! ## The table of positions -/

/-- Position (w, k) of the table is the word of w + k: the sum is below 2³¹, so the test for a negative index fails and
    nothing is added. -/
theorem pos_word (w : Fin 8177) (k : Fin 16) :
    val_main_v11 (F := Ideal) (ix2 w k) = BitVec.ofNat 32 (w.val + k.val) := by
  have hw := w.isLt
  have hk := k.isLt
  have hs : val_main_v6 (F := Ideal) (ix2 w k) = BitVec.ofNat 32 (w.val + k.val) := by
    rw [val_main_v6_apply, val_main_v4_apply, val_main_v1_apply, val_main_v0_apply, val_main_v5_apply, val_main_v3_apply,
      val_main_v2_apply]
    show IntOp.addi (BitVec.ofNat 32 w.val) (BitVec.ofNat 32 k.val) = _
    unfold IntOp.addi
    exact (BitVec.ofNat_add _ _).symm
  rw [val_main_v11_apply, val_main_v8_apply, val_main_v7_apply, val_main_c_apply, hs]
  have hlt : ¬ IntOp.cmpi .slt (BitVec.ofNat 32 (w.val + k.val)) 0#32 = 1#1 := by
    rw [slt_iff_toNat (by rw [BitVec.toNat_ofNat]; omega) (by decide)]
    simp
  unfold Scalar.select
  exact if_neg hlt

/-! ## The gather of columns -/

/-- On the batch axis the gather reads the result's own batch coordinate. -/
theorem gather_row (idx : IVec S8177x16x1 32) (b : Fin 64) (w : Fin 8177) (k : Fin 16) :
    (gather_S64x8192_S8177x16x1_S64x8177x16_0_1_n_n_1_2_641.operandIdx (ix3 b w k) idx 0).val = b.val := by
  show gather_S64x8192_S8177x16x1_S64x8177x16_0_1_n_n_1_2_641.start (ix3 b w k) idx 0 + gather_S64x8192_S8177x16x1_S64x8177x16_0_1_n_n_1_2_641.batchCoord (ix3 b w k) 0 + gather_S64x8192_S8177x16x1_S64x8177x16_0_1_n_n_1_2_641.offCoord (ix3 b w k) 0 = b.val
  have h1 : gather_S64x8192_S8177x16x1_S64x8177x16_0_1_n_n_1_2_641.start (ix3 b w k) idx 0 = 0 := rfl
  have h2 : gather_S64x8192_S8177x16x1_S64x8177x16_0_1_n_n_1_2_641.batchCoord (ix3 b w k) 0 = 0 := rfl
  have h3 : gather_S64x8192_S8177x16x1_S64x8177x16_0_1_n_n_1_2_641.offCoord (ix3 b w k) 0 = b.val := rfl
  rw [h1, h2, h3]
  omega

/-- On the sample axis it reads the start index at (w, k), taken signed and clamped to the last sample. -/
theorem gather_col (idx : IVec S8177x16x1 32) (b : Fin 64) (w : Fin 8177) (k : Fin 16) :
    (gather_S64x8192_S8177x16x1_S64x8177x16_0_1_n_n_1_2_641.operandIdx (ix3 b w k) idx 1).val = min (idx (ix3 w k 0)).toInt.toNat 8191 := by
  show gather_S64x8192_S8177x16x1_S64x8177x16_0_1_n_n_1_2_641.start (ix3 b w k) idx 1 + gather_S64x8192_S8177x16x1_S64x8177x16_0_1_n_n_1_2_641.batchCoord (ix3 b w k) 1 + gather_S64x8192_S8177x16x1_S64x8177x16_0_1_n_n_1_2_641.offCoord (ix3 b w k) 1 = _
  have h2 : gather_S64x8192_S8177x16x1_S64x8177x16_0_1_n_n_1_2_641.batchCoord (ix3 b w k) 1 = 0 := rfl
  have h3 : gather_S64x8192_S8177x16x1_S64x8177x16_0_1_n_n_1_2_641.offCoord (ix3 b w k) 1 = 0 := rfl
  have h1 : gather_S64x8192_S8177x16x1_S64x8177x16_0_1_n_n_1_2_641.start (ix3 b w k) idx 1 = min (idx (ix3 w k 0)).toInt.toNat 8191 := by
    unfold GatherDims.start
    rw [dif_pos (by decide)]
    show min (idx (gather_S64x8192_S8177x16x1_S64x8177x16_0_1_n_n_1_2_641.siIdx (ix3 b w k) _)).toInt.toNat (8192 - 1) = _
    congr 3
    congr 1
    funext a
    match a with
    | ⟨0, _⟩ => rfl
    | ⟨1, _⟩ => rfl
    | ⟨2, _⟩ => rfl
  rw [h1, h2, h3]
  omega

/-- The gathered windows: at (b, w, k), sample w + k of batch row b. -/
theorem window_apply (x0 : FVec Ideal S64x8192 .f32) (b : Fin 64) (w : Fin 8177) (k : Fin 16) :
    val_main_v13 (F := Ideal) x0 (ix3 b w k)
      = x0 (ix2 b ⟨w.val + k.val, by have := w.isLt; have := k.isLt; omega⟩) := by
  have hw := w.isLt
  have hk := k.isLt
  unfold val_main_v13 Host.gather
  refine congrArg x0 (funext fun a => Fin.ext ?_)
  match a with
  | ⟨0, _⟩ => exact gather_row _ b w k
  | ⟨1, _⟩ =>
    refine (gather_col _ b w k).trans ?_
    rw [val_main_v12_apply]
    have e : idx_main_v12 (ix3 w k (0 : Fin 1)) = ix2 w k := funext fun a => Fin.ext (by
      match a with
      | ⟨0, _⟩ => rfl
      | ⟨1, _⟩ => rfl)
    rw [e, pos_word, toInt_ofNat_small _ (by omega)]
    show min (Int.toNat ((w.val + k.val : ℕ) : ℤ)) 8191 = w.val + k.val
    rw [Int.toNat_natCast]
    omega

/-- Row r of the flattened windows is the window starting at r mod 8177 of batch row r div 8177. -/
theorem rows_apply (x0 : FVec Ideal S64x8192 .f32) (r : Fin 523328) (k : Fin 16) :
    val_main_v14 (F := Ideal) x0 (ix2 r k)
      = x0 (ix2 ⟨r.val / 8177, by have := r.isLt; omega⟩ ⟨r.val % 8177 + k.val, by have := k.isLt; omega⟩) := by
  have hr := r.isLt
  have hk := k.isLt
  rw [val_main_v14_apply]
  have e : idx_main_v14 (ix2 r k)
      = ix3 (⟨r.val / 8177, by omega⟩ : Fin 64) (⟨r.val % 8177, by omega⟩ : Fin 8177) k := funext fun a => Fin.ext (by
    match a with
    | ⟨0, _⟩ => show (r.val * 16 + k.val) / 130832 = r.val / 8177; omega
    | ⟨1, _⟩ => show (r.val * 16 + k.val) / 16 % 8177 = r.val % 8177; omega
    | ⟨2, _⟩ => show (r.val * 16 + k.val) % 16 = k.val; omega)
  rw [e, window_apply]

/-! ## A row of the result -/

theorem lidx15 (r : Fin 523328) (h : Fin 64) (k : Fin 16) : lidx_main_v15 (ix2 r h) k = ix2 r k :=
  funext fun a => Fin.ext (by
    match a with
    | ⟨0, _⟩ => rfl
    | ⟨1, _⟩ => rfl)
theorem ridx15 (r : Fin 523328) (h : Fin 64) (k : Fin 16) : ridx_main_v15 (ix2 r h) k = ix2 k h :=
  funext fun a => Fin.ext (by
    match a with
    | ⟨0, _⟩ => rfl
    | ⟨1, _⟩ => rfl)
theorem idx17 (r : Fin 523328) (h : Fin 64) : idx_main_v16 (idx_main_v17 (ix2 r h)) = ix1 h :=
  funext fun a => Fin.ext (by
    match a with
    | ⟨0, _⟩ => rfl)
theorem lidx20 (r : Fin 523328) (c : Fin 8) (h : Fin 64) : lidx_main_v20 (ix2 r c) h = ix2 r h :=
  funext fun a => Fin.ext (by
    match a with
    | ⟨0, _⟩ => rfl
    | ⟨1, _⟩ => rfl)
theorem ridx20 (r : Fin 523328) (c : Fin 8) (h : Fin 64) : ridx_main_v20 (ix2 r c) h = ix2 h c :=
  funext fun a => Fin.ext (by
    match a with
    | ⟨0, _⟩ => rfl
    | ⟨1, _⟩ => rfl)
theorem idx22 (r : Fin 523328) (c : Fin 8) : idx_main_v21 (idx_main_v22 (ix2 r c)) = ix1 c :=
  funext fun a => Fin.ext (by
    match a with
    | ⟨0, _⟩ => rfl)

/-- Hidden unit h of row r. -/
theorem hidden_ref (x0 : FVec Ideal S64x8192 .f32) (x1 : FVec Ideal S16x64 .f32) (x2 : FVec Ideal S64 .f32)
    (r : Fin 523328) (h : Fin 64) :
    val_main_v19 (F := Ideal) x0 x1 x2 (ix2 r h)
      = Ideal.tanh ((∑ k : Fin 16, x0 (ix2 ⟨r.val / 8177, by have := r.isLt; omega⟩
            ⟨r.val % 8177 + k.val, by have := k.isLt; omega⟩) * x1 (ix2 k h)) + x2 (ix1 h)) := by
  rw [val_main_v19_apply, val_main_v18_apply, val_main_v15_apply, val_main_v17_apply, val_main_v16_apply, idx17]
  show Ideal.tanh (_ + _) = _
  refine congrArg Ideal.tanh (congrArg₂ (· + ·) (Finset.sum_congr rfl fun k _ => ?_) rfl)
  rw [lidx15, ridx15, rows_apply]

/-- ROW r, CHANNEL c of the reference before its final reshape: the perceptron row of the window starting at
    r mod 8177 of batch row r div 8177. -/
theorem row_eq (x0 : FVec Ideal S64x8192 .f32) (x1 : FVec Ideal S16x64 .f32) (x2 : FVec Ideal S64 .f32)
    (x3 : FVec Ideal S64x8 .f32) (x4 : FVec Ideal S8 .f32) (r : Fin 523328) (c : Fin 8) :
    val_main_v23 (F := Ideal) x0 x1 x2 x3 x4 (ix2 r c)
      = mlpRow (fun j => x0 (ix2 ⟨r.val / 8177, by have := r.isLt; omega⟩
            ⟨r.val % 8177 + j.val, by have := j.isLt; omega⟩)) x1 (fun h => x2 (ix1 h)) x3 (x4 (ix1 c)) c := by
  rw [val_main_v23_apply, val_main_v20_apply, val_main_v22_apply, val_main_v21_apply, idx22]
  unfold mlpRow
  show _ + _ = _
  refine congrArg₂ (· + ·) (Finset.sum_congr rfl fun h _ => ?_) rfl
  rw [lidx20, ridx20, hidden_ref]

end Cert.ReferenceIdeal.RefValue

end
-- ==== Proof.Bridge.lean ====
/-
  The two results are one array. Both programs end by reading a buffer of rows (batch row, position, channel) in flat
  order as (batch row, channel-many, position-many): at flat position f the kernel's array is read at
  (f div 65416, f div 8 mod 8177, f mod 8) and the reference's rows at (f div 8, f mod 8), and row f div 8 of the
  reference is the window starting at (f div 8) mod 8177 of batch row (f div 8) div 8177 = f div 65416: the same
  perceptron row of the same sixteen samples, which lie inside the signal, where the kernel's padded signal is the signal.
-/
import proofs.«134349_j34565896798381_1_alg».proof.Proof.KernelArray
import proofs.«134349_j34565896798381_1_alg».proof.Proof.RefRows

noncomputable section

namespace Cert.Bridge

open Idealize.ShloMosaic Idealize.ShloMosaic.TcCoe Idealize.SL.Sem Idealize.ShloMosaic.ValueIdx Cert.ConvMlp
open Cert.KernelIdeal.ArrayValue

variable (m : (ℓ : Loc Cert.KernelIdeal.nD Cert.KernelIdeal.τ Cert.KernelIdeal.sig) → Buf (Elt Ideal) ℓ)

/-- The kernel's argument arrays at the reference's literal shapes. -/
abbrev sigIn (c : Dev Cert.KernelIdeal.nD) : FVec Ideal Cert.ReferenceIdeal.S64x8192 .f32 := m ((c.tc : Thread Cert.KernelIdeal.nD Cert.KernelIdeal.τ).loc Cert.KernelIdeal.main_arg0)
abbrev w1In (c : Dev Cert.KernelIdeal.nD) : FVec Ideal Cert.ReferenceIdeal.S16x64 .f32 := m ((c.tc : Thread Cert.KernelIdeal.nD Cert.KernelIdeal.τ).loc Cert.KernelIdeal.main_arg1)
abbrev b1In (c : Dev Cert.KernelIdeal.nD) : FVec Ideal Cert.ReferenceIdeal.S64 .f32 := m ((c.tc : Thread Cert.KernelIdeal.nD Cert.KernelIdeal.τ).loc Cert.KernelIdeal.main_arg2)
abbrev w2In (c : Dev Cert.KernelIdeal.nD) : FVec Ideal Cert.ReferenceIdeal.S64x8 .f32 := m ((c.tc : Thread Cert.KernelIdeal.nD Cert.KernelIdeal.τ).loc Cert.KernelIdeal.main_arg3)
abbrev b2In (c : Dev Cert.KernelIdeal.nD) : FVec Ideal Cert.ReferenceIdeal.S8 .f32 := m ((c.tc : Thread Cert.KernelIdeal.nD Cert.KernelIdeal.τ).loc Cert.KernelIdeal.main_arg4)

/-- THE BRIDGE: the reference's result term over the kernel's argument arrays is the kernel's result. -/
theorem result_eq (c : Dev Cert.KernelIdeal.nD) :
    Cert.ReferenceIdeal.Read.val_main_v24 (F := Ideal) (sigIn m c) (w1In m c) (b1In m c) (w2In m c) (b2In m c) = result m c := by
  funext i
  have h0 : (i 0).val < 64 := (i 0).isLt
  have h1 : (i 1).val < 8 := (i 1).isLt
  have h2 : (i 2).val < 8177 := (i 2).isLt
  obtain ⟨f, hf⟩ : ∃ f : ℕ, f = ((i 0).val * 8 + (i 1).val) * 8177 + (i 2).val := ⟨_, rfl⟩
  have hfl : f < 4186624 := by omega
  rw [Cert.ReferenceIdeal.Read.val_main_v24_apply]
  have e : Cert.ReferenceIdeal.Read.idx_main_v24 i = ix2 (⟨f / 8, by omega⟩ : Fin 523328) (⟨f % 8, by omega⟩ : Fin 8) := funext fun a => Fin.ext (by
    match a with
    | ⟨0, _⟩ => show (((i 0).val * 8 + (i 1).val) * 8177 + (i 2).val) / 8 = f / 8; rw [hf]
    | ⟨1, _⟩ => show (((i 0).val * 8 + (i 1).val) * 8177 + (i 2).val) % 8 = f % 8; rw [hf])
  rw [e, Cert.ReferenceIdeal.RefValue.row_eq (sigIn m c) (w1In m c) (b1In m c) (w2In m c) (b2In m c) ⟨f / 8, by omega⟩ ⟨f % 8, by omega⟩]
  unfold result
  refine Eq.trans ?_ (shapeCast_apply (outArr m c) _ i
    (ix3 (⟨f / 65416, by omega⟩ : Fin 64) (⟨f / 8 % 8177, by omega⟩ : Fin 8177) (⟨f % 8, by omega⟩ : Fin 8)) ?_).symm
  · show _ = outAt (sigArr m c) (w1Arr m c) (b1Arr m c) (w2Arr m c) (b2Arr m c) ⟨f / 65416, by omega⟩ ⟨f / 8 % 8177, by omega⟩ ⟨f % 8, by omega⟩
    unfold outAt
    refine mlpRow_congr _ (funext fun j => ?_) (w1_eq m c).symm (funext fun h => (b1_apply m c h).symm) (w2_eq m c).symm
      (b2_apply m c ⟨f % 8, by omega⟩).symm
    have hj := j.isLt
    refine Eq.trans ?_ (sig_apply m c ⟨f / 65416, by omega⟩ ⟨f / 8 % 8177 + j.val, by omega⟩).symm
    show sigIn m c _ = sigIn m c _
    congr 1
    funext a
    apply Fin.ext
    match a with
    | ⟨0, _⟩ => show f / 8 / 8177 = f / 65416; omega
    | ⟨1, _⟩ => rfl
  · show ((⟨3, ![64, 8177, 8]⟩ : Shape).rowMajor (ix3 (⟨f / 65416, by omega⟩ : Fin 64) (⟨f / 8 % 8177, by omega⟩ : Fin 8177) (⟨f % 8, by omega⟩ : Fin 8))).val
      = ((⟨3, ![64, 8, 8177]⟩ : Shape).rowMajor i).val
    rw [Shape.rowMajor_val_three, Shape.rowMajor_val_three]
    show (f / 65416 * 8177 + f / 8 % 8177) * 8 + f % 8 = ((i 0).val * 8 + (i 1).val) * 8177 + (i 2).val
    omega

end Cert.Bridge

end
-- ==== Proof.lean ====
/-
  The certificate of a sliding-window perceptron: every window of sixteen consecutive samples of each of 64 signals of
  8192 samples goes through a two-layer perceptron (tanh between the layers), and the 64 · 8177 rows of 8 channels are
  read back, in flat order, as a 64 × 8 × 8177 array.

  The kernel pads each signal with fifteen zeros, and at grid point t reads the strip of samples 256 t … 256 t + 270,
  forms the 256 windows that start inside it, and computes both layers for them on the matrix unit, the operands passing
  through bf16; over the extended reals a change of float format is the identity and a matrix product into a zero
  accumulator is the plain sum of products, so element (b, w, c) of its output array is
    ∑ h, tanh (∑ j, x[b, w + j] · W1[j, h] + b1[h]) · W2[h, c] + b2[c],
  the padding never being reached by a kept position (w + 15 ≤ 8191); the last block of positions overhangs the array and
  is cut at its end. The reference gathers the same windows by a table of positions w + k, flattens them to rows, and
  applies the two layers as whole-array products: the same sums term by term, with no law of the extended reals needed
  beyond that. Both end with the same flat reshape. The idealization rewrote nothing, so preserves is trivial; the
  frames are the generated ones, the reference's the frame part of its generated run.
-/
import proofs.«134349_j34565896798381_1_alg».proof.Defs
import proofs.«134349_j34565896798381_1_alg».proof.Proof.Gen.Kernel
import proofs.«134349_j34565896798381_1_alg».proof.Proof.Gen.Kernel.Skeleton
import proofs.«134349_j34565896798381_1_alg».proof.Proof.Gen.Kernel.Launch
import proofs.«134349_j34565896798381_1_alg».proof.Proof.Gen.Kernel.Points
import proofs.«134349_j34565896798381_1_alg».proof.Proof.Gen.Kernel.Frame
import proofs.«134349_j34565896798381_1_alg».proof.Proof.Gen.KernelIdeal
import proofs.«134349_j34565896798381_1_alg».proof.Proof.Gen.KernelIdeal.Skeleton
import proofs.«134349_j34565896798381_1_alg».proof.Proof.Gen.KernelIdeal.Launch
import proofs.«134349_j34565896798381_1_alg».proof.Proof.Gen.KernelIdeal.Points
import proofs.«134349_j34565896798381_1_alg».proof.Proof.Gen.KernelIdeal.Frame
import proofs.«134349_j34565896798381_1_alg».proof.Proof.Gen.ReferenceIdeal
import proofs.«134349_j34565896798381_1_alg».proof.Proof.Gen.Pre_finite_inputs
import proofs.«134349_j34565896798381_1_alg».proof.Proof.Gen.ReferenceIdeal.Run
import proofs.«134349_j34565896798381_1_alg».proof.Proof.Gen.ReferenceIdeal.Read
import proofs.«134349_j34565896798381_1_alg».proof.Proof.Bridge
import Idealize.ShloMosaic.Adequacy
import Idealize.ShloMosaic.Init

noncomputable section

namespace Cert.Proof

open Idealize.ShloMosaic Idealize.SL.Sem

namespace Claims

variable [hKernel : Cert.Kernel.Facts] [hKernelIdeal : Cert.KernelIdeal.Facts] [hReferenceIdeal : Cert.ReferenceIdeal.Facts]
  [hPre_finite_inputs : Cert.Pre_finite_inputs.Facts]

/-- The kernel as printed runs and leaves its arguments: the generated frame. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from memories that agree on the arguments, the kernel ends with its output function
    reshaped and the reference with its rows reshaped: one array. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2.1, (hagree c).2.2.2.1, (hagree c).2.2.2.2]
  exact Cert.Bridge.result_eq m c

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
